-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩
abbrev S1024x512 : Shape := ⟨2, ![1024, 512]⟩
abbrev S1024x1024 : Shape := ⟨2, ![1024, 1024]⟩

abbrev nBuf : Space → Nat
  | .hbm => 25
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S16384x2048, .f32⟩
  | .hbm, ⟨22, _⟩ => ⟨S16384x2048, .bf16⟩
  | .hbm, ⟨23, _⟩ => ⟨S16384x2048, .f32⟩
  | .hbm, ⟨24, _⟩ => ⟨S4x4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  shapeCasts_S4x4096x2048_S16384x2048 : S4x4096x2048.ShapeCasts S16384x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S16384x2048_S4x4096x2048 : S16384x2048.ShapeCasts S4x4096x2048
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x2048.size a
  hwx0_0 : ∀ i : grid0.Coords, EltTy.bits .bf16 = 32 ∨ (Rect.block (s := S16384x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x2048.size a
  hwx0_1 : ∀ i : grid0.Coords, EltTy.bits .bf16 = 32 ∨ (Rect.block (s := S2048x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x2048.size a
  hwx0_2 : ∀ i : grid0.Coords, EltTy.bits .f32 = 32 ∨ (Rect.block (s := S16384x2048) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_c_6 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bcast_S_S4x4096x2048 : S_.BroadcastsInDim S4x4096x2048 (![] : Fin 0 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Words.lean ====
/-
  The float words the two programs spell, as the real numbers they denote.

  Each is a normal single-precision pattern: sign, biased exponent, 23 fraction bits. The count of weight entries
  2^22, the fan-in 2048, the clamp bounds ±128 and the scale 128/2048 = 1/16 are powers of two; the stabiliser
  added to the mean is the single-precision neighbour of 10^-5, the positive dyadic 10995116 / 2^40.
-/
import Idealize.ShloMosaic.PureOps.Ideal

noncomputable section

namespace Cert.Words

open Idealize.ShloMosaic

theorem zero_word : Ideal.ofBits .f32 0x00000000#32 = 0 := by
  simp [Ideal.ofBits, Ideal.ieee]

theorem count_word : Ideal.ofBits .f32 0x4A800000#32 = ((4194304 : ℝ) : EReal) := by
  simp [Ideal.ofBits, Ideal.ieee, -EReal.coe_mul]; norm_num

theorem eps_word : Ideal.ofBits .f32 0x3727C5AC#32 = ((10995116 / 1099511627776 : ℝ) : EReal) := by
  simp [Ideal.ofBits, Ideal.ieee, -EReal.coe_mul]; norm_num

theorem fanin_word : Ideal.ofBits .f32 0x45000000#32 = ((2048 : ℝ) : EReal) := by
  simp [Ideal.ofBits, Ideal.ieee, -EReal.coe_mul]; norm_num

theorem hi_word : Ideal.ofBits .f32 0x43000000#32 = ((128 : ℝ) : EReal) := by
  simp [Ideal.ofBits, Ideal.ieee, -EReal.coe_mul]; norm_num

theorem lo_word : Ideal.ofBits .f32 0xC3000000#32 = ((-128 : ℝ) : EReal) := by
  simp [Ideal.ofBits, Ideal.ieee, -EReal.coe_mul]; norm_num

theorem scale_word : Ideal.ofBits .f32 0x3D800000#32 = ((1 / 16 : ℝ) : EReal) := by
  simp [Ideal.ofBits, Ideal.ieee, -EReal.coe_mul]; norm_num

/-- The signed 32-bit integers -128 and 128 converted to a float are the clamp bounds' words. -/
theorem lo_int : (((4294967168#32 : BitVec 32).toInt : ℝ) : EReal) = Ideal.ofBits .f32 0xC3000000#32 := by
  rw [lo_word]; norm_num [BitVec.toInt]

theorem hi_int : (((128#32 : BitVec 32).toInt : ℝ) : EReal) = Ideal.ofBits .f32 0x43000000#32 := by
  rw [hi_word]; norm_num [BitVec.toInt]

end Cert.Words

end
-- ==== Proof.Spec.lean ====
/-
  The quantised linear layer, as one function of its arguments.

  With ternary weights `wq` (any array here: how they are computed from the raw weights is the same on both sides), the
  result at batch `b`, position `s`, output feature `o` is the inner product of row `(b, s)` of `x` with row `o` of `wq`,
  scaled by 1/16 and clamped to [-128, 128].

  Also here: the scale law (a quotient by 2048 followed by a product with 128 is a product with 1/16, on every extended
  real, because the multiplication of extended reals is associative), and the inner product cut into consecutive
  stretches of the contracted axis, which is how a blocked accumulation computes it: the sum over the indices below `n`
  of the two matrices' rows, the matrices continued by zero outside their extents so that rows and columns are plain
  natural numbers.
-/
import Idealize.ShloMosaic.Lib.ValueIdx
import Idealize.ShloMosaic.PureOps.Ideal
import proofs.«126023_j35399120453871_1_alg».proof.Proof.Words

noncomputable section

open scoped BigOperators

namespace Cert.TernaryLinear

open Idealize.ShloMosaic Idealize.ShloMosaic.ValueIdx

/-- Scale by 1/16, then clamp to [-128, 128]: the lower bound first, then the upper. -/
def clampScale (y : EReal) : EReal :=
  min (Ideal.ofBits .f32 0x43000000#32) (max (Ideal.ofBits .f32 0xC3000000#32) (y * Ideal.ofBits .f32 0x3D800000#32))

/-- The layer: entry `(b, s, o)` is the clamped, scaled inner product of `x`'s row `(b, s)` and `wq`'s row `o`. -/
def layer (x : (⟨3, ![4, 4096, 2048]⟩ : Shape).Idx → EReal) (wq : (⟨2, ![2048, 2048]⟩ : Shape).Idx → EReal) :
    (⟨3, ![4, 4096, 2048]⟩ : Shape).Idx → EReal :=
  fun i => clampScale (∑ k : Fin 2048, x (ix3 (i 0) (i 1) k) * wq (ix2 (i 2) k))

/-- Dividing by 2048 and then multiplying by 128 is multiplying by 1/16, for every extended real. -/
theorem scale_law (y : EReal) :
    Ideal.div y (Ideal.ofBits .f32 0x45000000#32) * Ideal.ofBits .f32 0x43000000#32 = y * Ideal.ofBits .f32 0x3D800000#32 := by
  rw [Cert.Words.fanin_word, Cert.Words.hi_word, Cert.Words.scale_word, Ideal.div_coe (by norm_num : (2048 : ℝ) ≠ 0), mul_assoc,
    ← EReal.coe_mul]
  congr 2
  norm_num

/-- A matrix continued by zero to all pairs of natural numbers. -/
def ext {M N : ℕ} (a : (⟨2, ![M, N]⟩ : Shape).Idx → EReal) (r k : ℕ) : EReal :=
  if h : r < M ∧ k < N then a (ix2 ⟨r, h.1⟩ ⟨k, h.2⟩) else 0

theorem ext_of_lt {M N : ℕ} (a : (⟨2, ![M, N]⟩ : Shape).Idx → EReal) {r k : ℕ} (hr : r < M) (hk : k < N) :
    ext a r k = a (ix2 ⟨r, hr⟩ ⟨k, hk⟩) := dif_pos ⟨hr, hk⟩

/-- The inner product of row `r` of `a` and row `s` of `b` over the contracted indices below `n`. -/
def dotUpTo {M N K : ℕ} (a : (⟨2, ![M, K]⟩ : Shape).Idx → EReal) (b : (⟨2, ![N, K]⟩ : Shape).Idx → EReal) (r s n : ℕ) : EReal :=
  ∑ k ∈ Finset.range n, ext a r k * ext b s k

theorem dotUpTo_zero {M N K : ℕ} (a : (⟨2, ![M, K]⟩ : Shape).Idx → EReal) (b : (⟨2, ![N, K]⟩ : Shape).Idx → EReal) (r s : ℕ) :
    dotUpTo a b r s 0 = 0 := Finset.sum_range_zero _

/-- One more stretch of `L` contracted indices. -/
theorem dotUpTo_add {M N K : ℕ} (a : (⟨2, ![M, K]⟩ : Shape).Idx → EReal) (b : (⟨2, ![N, K]⟩ : Shape).Idx → EReal) (r s n L : ℕ) :
    dotUpTo a b r s (n + L) = dotUpTo a b r s n + ∑ j : Fin L, ext a r (n + j) * ext b s (n + j) := by
  unfold dotUpTo
  rw [Finset.sum_range_add]
  congr 1
  exact Finset.sum_range (fun j => ext a r (n + j) * ext b s (n + j))

/-- Over the whole contracted axis it is the inner product of the two rows. -/
theorem dotUpTo_full {M N K : ℕ} (a : (⟨2, ![M, K]⟩ : Shape).Idx → EReal) (b : (⟨2, ![N, K]⟩ : Shape).Idx → EReal)
    {r s : ℕ} (hr : r < M) (hs : s < N) :
    dotUpTo a b r s K = ∑ k : Fin K, a (ix2 ⟨r, hr⟩ k) * b (ix2 ⟨s, hs⟩ k) := by
  unfold dotUpTo
  rw [Finset.sum_range]
  refine Finset.sum_congr rfl fun k _ => ?_
  rw [ext_of_lt a hr k.isLt, ext_of_lt b hs k.isLt]

end Cert.TernaryLinear

end
-- ==== Proof.LibRealValued.lean ====
/-
  Extended reals that are real numbers.

  An extended real is REAL when it is the image of a real number, that is, neither of the two infinities. The real
  values are closed under the field operations, under maximum and minimum, under a quotient by a non-zero real and
  under finite sums. On real values the extended reals are a commutative ring, so the distributive law, which fails
  at the infinities (a negative factor times ⊤ + ⊥ is ⊤, while the sum of the two products is ⊥), holds.
-/
import Idealize.ShloMosaic.PureOps.Ideal

noncomputable section

namespace Cert.RealValued

open Idealize.ShloMosaic

/-- The extended real `a` is a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The quotient of a real value by a non-zero real number is real: it is the product with the reciprocal. -/
theorem IsReal.div_coe {a : EReal} {y : ℝ} (hy : y ≠ 0) (ha : IsReal a) : IsReal (Ideal.div a (y : EReal)) := by
  rw [Ideal.div_coe hy]
  exact ha.mul ⟨_, rfl⟩

/-- A finite sum of real values is real. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- On real values: `(-c) · d + c · p = c · (p - d)`. -/
theorem neg_mul_add_mul_eq_mul_sub {c p d : EReal} (hc : IsReal c) (hp : IsReal p) (hd : IsReal d) :
    -c * d + c * p = c * (p - d) := by
  obtain ⟨c, rfl⟩ := hc
  obtain ⟨p, rfl⟩ := hp
  obtain ⟨d, rfl⟩ := hd
  rw [← EReal.coe_neg, ← EReal.coe_mul, ← EReal.coe_mul, ← EReal.coe_add, ← EReal.coe_sub, ← EReal.coe_mul]
  congr 1
  ring

end Cert.RealValued

end
-- ==== Proof.RefSide.lean ====
/-
  The reference, read at an index: it is the layer of the specification over its own ternary weights.
-/
import proofs.«126023_j35399120453871_1_alg».proof.Defs
import proofs.«126023_j35399120453871_1_alg».proof.Proof.Gen.ReferenceIdeal.Read
import proofs.«126023_j35399120453871_1_alg».proof.Proof.Spec
import proofs.«126023_j35399120453871_1_alg».proof.Proof.LibRealValued

noncomputable section

open scoped BigOperators

namespace Cert.ReferenceIdeal.RefValue

open Cert.ReferenceIdeal Cert.ReferenceIdeal.Gen Idealize.ShloMosaic Idealize.ShloMosaic.ValueIdx Cert.RealValued

/-- A finite sum of images of real numbers is the image of the real sum. -/
theorem coe_finset_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The absolute value of a real value, taken as the larger of it and its negative, is a non-negative real. -/
theorem abs_real {a : EReal} (ha : IsReal a) : ∃ r : ℝ, 0 ≤ r ∧ max a (-a) = (r : EReal) := by
  obtain ⟨r, rfl⟩ := ha
  refine ⟨|r|, abs_nonneg r, ?_⟩
  rw [← EReal.coe_neg, ← EReal.coe_strictMono.monotone.map_max, abs_eq_max_neg]

/-- The weights divided by (their mean absolute value plus the stabiliser) are real when the weights are. -/
theorem normalized_real (w : (⟨S2048x2048, .f32⟩ : BufTy).Contents (Elt Ideal)) (hw : ∀ j, IsReal (w j)) (i : S2048x2048.Idx) :
    IsReal (Read.val_main_v5 (F := Ideal) w i) := by
  -- every absolute value is a non-negative real, g j
  have habs : ∀ j, ∃ r : ℝ, 0 ≤ r ∧ Read.val_main_v0 (F := Ideal) w j = (r : EReal) := fun j => abs_real (hw j)
  choose g hg0 hg using habs
  rw [Read.val_main_v5_apply, Read.val_main_v4_apply, Read.val_main_v3_apply, Read.val_main_v2_apply,
    Read.val_main_v1_apply, Read.val_main_cst_apply, Read.val_main_cst_0_apply, Read.val_main_cst_1_apply]
  simp only [Ideal.hostDivf_def, Ideal.addf_def, Ideal.ofBits_def, Cert.Words.zero_word, Cert.Words.count_word,
    Cert.Words.eps_word, hg]
  -- the divisor is the real number S / 2^22 + eps with S the sum of the g j, which is non-negative: it is positive
  rw [coe_finset_sum, zero_add, Ideal.div_coe (by norm_num : (4194304 : ℝ) ≠ 0), ← EReal.coe_mul, ← EReal.coe_add]
  have hS : 0 ≤ ∑ j, g j := Finset.sum_nonneg fun j _ => hg0 j
  have hpos : (0 : ℝ) < (∑ j, g j) * (1 / 4194304) + 10995116 / 1099511627776 :=
    add_pos_of_nonneg_of_pos (mul_nonneg hS (by norm_num)) (by norm_num)
  exact IsReal.div_coe (ne_of_gt hpos) (hw i)

/-- At the exact instance the conversion of a signed 32-bit integer to a float is the integer itself. -/
theorem sitofp_ideal (b : BitVec 32) : FloatOps.sitofp (F := Ideal) .f32 b = (((b.toInt : ℤ) : ℝ) : EReal) := rfl

/-- The straight-through term adds nothing: the normalized weight is real, so its difference with itself is zero. -/
theorem ste_eq_ternary (w : (⟨S2048x2048, .f32⟩ : BufTy).Contents (Elt Ideal)) (hw : ∀ j, IsReal (w j)) (j : S2048x2048.Idx) :
    Read.val_main_v9 (F := Ideal) w j = Read.val_main_v7 (F := Ideal) w j := by
  rw [Read.val_main_v9_apply, Read.val_main_v8_apply]
  obtain ⟨r, hr⟩ := normalized_real w hw j
  rw [hr, Ideal.addf_def, Ideal.subf_def, ← EReal.coe_sub, sub_self, EReal.coe_zero, add_zero]

/-- The left operand of the contraction is read at row (i 0, i 1), column k. -/
theorem lidx_eq (i : S4x4096x2048.Idx) (k : Fin 2048) : Read.lidx_main_v10 i k = ix3 (i 0) (i 1) k := by
  funext a
  match a with
  | ⟨0, _⟩ => rfl
  | ⟨1, _⟩ => rfl
  | ⟨2, _⟩ => rfl

/-- The right operand of the contraction is read at row i 2, column k. -/
theorem ridx_eq (i : S4x4096x2048.Idx) (k : Fin 2048) : Read.ridx_main_v10 i k = ix2 (i 2) k := by
  funext a
  match a with
  | ⟨0, _⟩ => rfl
  | ⟨1, _⟩ => rfl

/-- The reference's result is the layer over its ternary weights, when the raw weights are real. -/
theorem reference_eq_layer (x : (⟨S4x4096x2048, .f32⟩ : BufTy).Contents (Elt Ideal)) (w : (⟨S2048x2048, .f32⟩ : BufTy).Contents (Elt Ideal))
    (hw : ∀ j, IsReal (w j)) :
    Read.val_main_v15 (F := Ideal) x w = Cert.TernaryLinear.layer x (Read.val_main_v7 (F := Ideal) w) := by
  funext i
  rw [Read.val_main_v15_apply, Read.val_main_call2_v4_apply, Read.val_main_call2_v3_apply, Read.val_main_c_6_apply,
    Read.val_main_call2_v2_apply, Read.val_main_call2_v1_apply, Read.val_main_call2_v0_apply, Read.val_main_c_apply,
    Read.val_main_v14_apply, Read.val_main_v13_apply, Read.val_main_cst_5_apply, Read.val_main_v12_apply,
    Read.val_main_v11_apply, Read.val_main_cst_4_apply, Read.val_main_v10_apply]
  -- the two integer bounds are the words of 128 and -128; the quotient by 2048 times 128 is the product with 1/16
  rw [sitofp_ideal, sitofp_ideal, Cert.Words.hi_int, Cert.Words.lo_int]
  simp only [Ideal.minimumf_def, Ideal.maximumf_def, Ideal.mulf_def, Ideal.hostDivf_def, Ideal.ofBits_def]
  rw [Cert.TernaryLinear.scale_law]
  -- the contraction reads x at (i 0, i 1, k) and the ternary weights at (i 2, k)
  have h9 : Read.val_main_v9 (F := Ideal) w = Read.val_main_v7 (F := Ideal) w := funext (ste_eq_ternary w hw)
  rw [h9]
  simp only [lidx_eq, ridx_eq]
  rfl

end Cert.ReferenceIdeal.RefValue

end
-- ==== Proof.Finite.lean ====
/-
  The precondition read: every weight is a real number.

  The precondition is the conjunction of two bits, one per argument; the bit of an argument is the conjunction, over all
  of its entries, of the comparison |entry| < +∞. Where the whole predicate is 1, the second bit is 1, so each comparison
  of the second argument is 1, so the absolute value of each of its entries lies strictly below the top element of the
  extended reals. The absolute value max y (-y) is ⊤ at both infinities, so such an entry is neither: it is a real number.
-/
import proofs.«126023_j35399120453871_1_alg».proof.Pre_finite_inputs
import proofs.«126023_j35399120453871_1_alg».proof.Proof.LibRealValued
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic Cert.RealValued

/-- The 32-bit word 0x7F800000 (sign 0, exponent all ones, fraction 0) denotes +∞, the top extended real. -/
theorem inf_word : Ideal.ofBits .f32 0x7F800000#32 = (⊤ : EReal) := by
  simp [Ideal.ofBits, Ideal.ieee]

/-- An extended real whose absolute value max y (-y) lies strictly below ⊤ is a real number: at ⊥ the negation is ⊤, and
    at ⊤ the value itself is, so in both cases the maximum is ⊤. -/
theorem isReal_of_abs_lt_top (y : EReal) (hy : max y (-y) < ⊤) : IsReal y := by
  induction y using EReal.rec with
  | bot => simp at hy
  | coe r => exact ⟨r, rfl⟩
  | top => simp at hy

/-- A comparison bit "a < b" of extended reals that is 1 says a < b. -/
theorem lt_of_cmp_olt_eq_one (a b : EReal) (hc : Ideal.cmp .olt a b = 1#1) : a < b := by
  unfold Ideal.cmp at hc
  by_contra hn
  simp [hn] at hc

/-- Where the precondition's predicate is all ones, every entry of the second argument is a real number. -/
theorem weight_real [Cert.Pre_finite_inputs.Facts] (x : FVec Ideal S4x4096x2048 .f32) (w : FVec Ideal S2048x2048 .f32)
    (h : Cert.Pre_finite_inputs.fn (F := Ideal) x w = fun _ => 1#1) (j : S2048x2048.Idx) : IsReal (w j) := by
  -- the one entry of the rank-0 predicate
  have h0 := congrFun h ValueIdx.ix0
  unfold Cert.Pre_finite_inputs.fn at h0
  dsimp only at h0
  -- the conjunction of the two arguments' bits: keep the second
  have h1 := (IntOp.andi_eq_one.1 h0).2
  -- the conjunction over all entries of the second argument: read it at j
  haveI : Subsingleton S_.Idx := ⟨fun a b => funext fun d => d.elim0⟩
  have h2 := Host.reduce_andi_all _ _ _ _ _ h1 j
  -- the comparison at j: |w j| < the broadcast word, which is ⊤
  have h3 : Ideal.cmp .olt (max (w j) (-(w j))) (Ideal.ofBits .f32 0x7F800000#32) = 1#1 := h2
  rw [inf_word] at h3
  exact isReal_of_abs_lt_top (w j) (lt_of_cmp_olt_eq_one _ _ h3)

end Cert.Pre_finite_inputs.Decode

end
-- ==== Proof.KernelHost.lean ====
/-
  The host operations around the kernel, read at an entry.

  Before the kernel the activations are flattened from (4, 4096, 2048) to (16384, 2048), row `4096 b + s` being row `(b, s)`, and
  the ternary weights are computed from the raw weights by the same operations as the reference's; both are then narrowed to
  a shorter float format, which changes no value at the exact instance. After the kernel the (16384, 2048) result is
  unflattened to (4, 4096, 2048).
-/
import proofs.«126023_j35399120453871_1_alg».proof.Proof.Gen.KernelIdeal.Frame
import proofs.«126023_j35399120453871_1_alg».proof.Proof.Gen.ReferenceIdeal.Read
import Idealize.ShloMosaic.Lib.Pipeline.Value
import Idealize.ShloMosaic.Lib.ValueIdx
import Idealize.ShloMosaic.Lib.StableHlo.Run

noncomputable section

namespace Cert.KernelIdeal.HostSide

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Flattening: entry `(4096 b + s, k)` of the reshaped array is entry `(b, s, k)` of the rank-3 one: both have the row-major
    position `(4096 b + s) · 2048 + k`. -/
theorem flatten_entry (x : S4x4096x2048.Idx → EReal) (h : S4x4096x2048.ShapeCasts S16384x2048) (b : Fin 4) (s : Fin 4096) (k : Fin 2048) :
    shapeCast S16384x2048 x h (ix2 ⟨4096 * b.val + s.val, by have := b.isLt; have := s.isLt; omega⟩ k) = x (ix3 b s k) := by
  refine shapeCast_apply x h _ _ ?_
  rw [Shape.rowMajor_val_three, Shape.rowMajor_val_two]
  show (b.val * 4096 + s.val) * 2048 + k.val = (4096 * b.val + s.val) * 2048 + k.val
  omega

/-- The kernel's left operand: row `4096 b + s` of the flattened activations is row `(b, s)` of the activations. -/
theorem lhs_entry (c : Dev nD) (b : Fin 4) (s : Fin 4096) (k : Fin 2048) :
    (V m c main_v10 : S16384x2048.Idx → EReal) (ix2 ⟨4096 * b.val + s.val, by have := b.isLt; have := s.isLt; omega⟩ k)
      = (m ((c : Thread nD τ).loc main_arg0) : S4x4096x2048.Idx → EReal) (ix3 b s k) := by
  -- after the host operations the array holds the narrowing of the reshaped activations; narrowing changes no extended real
  have e : @Eq (S16384x2048.Idx → EReal) (V m c main_v10)
      (truncf (F := Ideal) (φ := .f32) .bf16
        (shapeCast S16384x2048 (m ((c : Thread nD τ).loc main_arg0) : S4x4096x2048.Idx → EReal) shapeCasts_S4x4096x2048_S16384x2048)
        bitsLt_bf16_f32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact flatten_entry _ _ b s k

/-- The kernel's right operand: the ternary weights, the same function of the raw weights as the reference's. -/
theorem rhs_eq (c : Dev nD) :
    (V m c main_v8 : S2048x2048.Idx → EReal)
      = Cert.ReferenceIdeal.Read.val_main_v7 (F := Ideal) (m ((c : Thread nD τ).loc main_arg1)) := by
  -- after the host operations the array holds the narrowing of: each raw weight divided by (the sum of all absolute weights
  -- over 2²², plus a small constant), rounded to the nearest even integer, then clipped below at -1 and above at 1. That is,
  -- operation for operation, the reference's term; narrowing changes no extended real
  have e : @Eq (S2048x2048.Idx → EReal) (V m c main_v8)
      (truncf (F := Ideal) (φ := .f32) .bf16
        (Cert.ReferenceIdeal.Read.val_main_v7 (F := Ideal) (m ((c : Thread nD τ).loc main_arg1)) : S2048x2048.Idx → EReal)
        bitsLt_bf16_f32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  rfl

/-- Unflattening: entry `(b, s, o)` of the reshaped array is entry `(4096 b + s, o)` of the flat one. -/
theorem unflatten_entry (y : S16384x2048.Idx → EReal) (h : S16384x2048.ShapeCasts S4x4096x2048) (b : Fin 4) (s : Fin 4096) (o : Fin 2048) :
    shapeCast S4x4096x2048 y h (ix3 b s o) = y (ix2 ⟨4096 * b.val + s.val, by have := b.isLt; have := s.isLt; omega⟩ o) := by
  refine shapeCast_apply y h _ _ ?_
  rw [Shape.rowMajor_val_three, Shape.rowMajor_val_two]
  show (4096 * b.val + s.val) * 2048 + o.val = (b.val * 4096 + s.val) * 2048 + o.val
  omega

end Cert.KernelIdeal.HostSide

end
-- ==== Proof.KernelPieces.lean ====
/-
  What one run of the kernel body leaves behind, case by case, as values.

  The body keeps a running product block in a scratch buffer. At the first step along the contracted grid axis it clears
  the scratch and then adds the product of its two input blocks; at a middle step it adds the product to what the step
  before left; at the last step it does the same and then stores the scaled, clamped scratch into the output block.
-/
import proofs.«126023_j35399120453871_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle step: the scratch ends at what it held plus the product of the two input blocks. -/
theorem scratch_mid (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x512 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x512) hz,
    View.ld_unit_zero (S := S1024x1024) hz]

/-- The last step, the scratch: the same sum. -/
theorem scratch_last (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x512 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S1024x1024) hz, View.readCov_unit_zero (S := S1024x1024) _ hz]

/-- The last step, the output block: the scaled, clamped sum. -/
theorem out_last (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x512 .bf16) (xs0 : Vec F S1024x1024 .f32) :
    out0_C_2 c i a3 h3 a4 h4 a5 h5 a6 h6 hc0 hc1 x0 x1 xs0 = k0_pay3 (k0_pay2 xs0 x0 x1) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S1024x1024) hz, View.readCov_unit_zero (S := S1024x1024) _ hz]

/-- The first step: the scratch is cleared, then holds the product of the two input blocks added to the cleared block. -/
theorem scratch_first (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x512 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, h6.read_unread, View.ld_unit_zero (S := S1024x512) hz,
    View.ld_unit_zero (S := S1024x1024) hz, View.readCov_unit_zero (S := S1024x1024) _ hz]

end Cert.KernelIdeal.Pieces

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.KernelPayload.lean ====
/-
  The kernel body's three stored values, read at an entry over the extended reals.

  The cleared scratch is zero everywhere. The accumulating store holds, at `(p, q)`, the scratch's old entry plus the inner
  product of row `p` of the left block and row `q` of the right block (the product of the left block with the transpose of
  the right one, into a zero accumulator). The emitting store holds the scratch's entry scaled by 1/16 and clamped to
  [-128, 128].
-/
import proofs.«126023_j35399120453871_1_alg».proof.Proof.Gen.KernelIdeal.Skeleton
import proofs.«126023_j35399120453871_1_alg».proof.Proof.LibDotForms
import proofs.«126023_j35399120453871_1_alg».proof.Proof.Spec
import Idealize.ShloMosaic.Lib.Pipeline.Value
import Idealize.ShloMosaic.Lib.ValueIdx

noncomputable section

open scoped BigOperators

namespace Cert.KernelIdeal.Payload

open Idealize.ShloMosaic Idealize.ShloMosaic.ValueIdx
open Cert.KernelIdeal Cert.KernelIdeal.Gen

/-- The body's product contracts the second axis of both blocks. -/
theorem product_form : DotForms.IsABt dot_S1024x512_S1024x512_S1024x1024_1_1_0_0_n_n := ⟨rfl, rfl, rfl, rfl, rfl, rfl⟩

theorem cleared_apply (p q : Fin 1024) : k0_pay1 (F := Ideal) (ix2 p q) = 0 := by
  unfold k0_pay1
  rw [shapeCast_self]
  exact Cert.Words.zero_word

theorem accumulate_apply (acc : Vec Ideal S1024x1024 .f32) (a b : Vec Ideal S1024x512 .bf16) (p q : Fin 1024) :
    k0_pay2 (F := Ideal) acc a b (ix2 p q) = acc (ix2 p q) + ∑ j : Fin 512, a (ix2 p j) * b (ix2 q j) := by
  unfold k0_pay2
  simp only [shapeCast_self]
  rw [addf_apply]
  congr 1
  exact DotForms.abt_matmul_zero_apply product_form none a b p q

theorem emit_apply (v : Vec Ideal S1024x1024 .f32) (p q : Fin 1024) :
    k0_pay3 (F := Ideal) v (ix2 p q) = Cert.TernaryLinear.clampScale (v (ix2 p q)) := by
  unfold k0_pay3 Cert.TernaryLinear.clampScale
  rfl

end Cert.KernelIdeal.Payload

end
-- ==== Proof.KernelBlocks.lean ====
/-
  The kernel's blocks and its running sum.

  The grid has 16 x 2 x 4 points, the last coordinate moving fastest: point `t` has coordinates `(t / 8, t / 4 % 2, t % 4)`.
  At point `t` the left block is rows `1024 (t / 8) ..` and columns `512 (t % 4) ..` of the flattened activations, the right
  block rows `1024 (t / 4 % 2) ..` and the same columns of the ternary weights, and the output block is rows `1024 (t / 8) ..`
  and columns `1024 (t / 4 % 2) ..` of the result. Along the four points of one output block the scratch holds the inner
  products of the rows over the first `512 (t % 4) + 512` contracted indices; after the fourth it holds them whole.
-/
import proofs.«126023_j35399120453871_1_alg».proof.Proof.KernelPieces
import proofs.«126023_j35399120453871_1_alg».proof.Proof.KernelPayload
import proofs.«126023_j35399120453871_1_alg».proof.Proof.Spec
import Idealize.ShloMosaic.Lib.Pipeline.Value
import Idealize.ShloMosaic.Lib.ValueIdx

noncomputable section

open scoped BigOperators

namespace Cert.KernelIdeal.Blocked

open Idealize.ShloMosaic Idealize.ShloMosaic.TcCoe Idealize.SL.Sem Idealize.ShloMosaic.ValueIdx
open Idealize.ShloMosaic.Pipeline (Dat)
open Cert.KernelIdeal Cert.KernelIdeal.Gen Cert.TernaryLinear

variable (m : (ℓ : Loc nD τ sig) → Buf (Elt Ideal) ℓ)

/-- The two arrays the kernel reads, as it finds them: the flattened activations and the ternary weights. -/
abbrev lhs (c : Dev nD) : S16384x2048.Idx → EReal := V m c main_v10
abbrev rhs (c : Dev nD) : S2048x2048.Idx → EReal := V m c main_v8

/-- The two input blocks at a point, at their literal type. -/
abbrev ablk (c : Dev nD) (t : Fin cfg0.N) : Vec Ideal S1024x512 .bf16 := iblk m c 0 t
abbrev bblk (c : Dev nD) (t : Fin cfg0.N) : Vec Ideal S1024x512 .bf16 := iblk m c 1 t

/-- The block indices of the three windows at a point, decided over the grid. -/
theorem idx_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = t.val / 8 ∧ win0_2.index t (1 : Fin 2) = t.val / 4 % 2 :=
  (by decide +kernel : ∀ t : Fin grid0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = t.val / 8 ∧ win0_2.index t (1 : Fin 2) = t.val / 4 % 2)

theorem lt_N (t : Fin cfg0.N) : t.val < 128 := lt_of_lt_of_eq t.isLt (show cfg0.N = 128 from N_0)

/-- The left block at a point, read at an entry. -/
theorem lhs_block (c : Dev nD) (t : Fin cfg0.N) (p : Fin 1024) (j : Fin 512) :
    ablk m c t (ix2 p j) = ext (lhs m c) (1024 * (t.val / 8) + p.val) (512 * (t.val % 4) + j.val) := by
  have hN := lt_N t
  have hr : 1024 * (t.val / 8) + p.val < 16384 := by have := p.isLt; omega
  have hk : 512 * (t.val % 4) + j.val < 2048 := by have := j.isLt; omega
  rw [ext_of_lt _ hr hk]
  obtain ⟨f0, f1, -⟩ := idx_facts t
  show (((cfg0.win 0).blk t).view.read (Elt Ideal) (V m c (Pipeline.arrRef spec0 0))) (ix2 p j) = _
  rw [View.read_apply]
  show V m c main_v10 _ = V m c main_v10 _
  congr 1
  funext a
  apply Fin.ext
  match a with
  | ⟨0, _⟩ => show win0_0.index t 0 * 1024 + 1 * p.val = 1024 * (t.val / 8) + p.val; rw [f0]; omega
  | ⟨1, _⟩ => show win0_0.index t 1 * 512 + 1 * j.val = 512 * (t.val % 4) + j.val; rw [f1]; omega

/-- The right block at a point, read at an entry. -/
theorem rhs_block (c : Dev nD) (t : Fin cfg0.N) (q : Fin 1024) (j : Fin 512) :
    bblk m c t (ix2 q j) = ext (rhs m c) (1024 * (t.val / 4 % 2) + q.val) (512 * (t.val % 4) + j.val) := by
  have hN := lt_N t
  have hr : 1024 * (t.val / 4 % 2) + q.val < 2048 := by have := q.isLt; omega
  have hk : 512 * (t.val % 4) + j.val < 2048 := by have := j.isLt; omega
  rw [ext_of_lt _ hr hk]
  obtain ⟨-, -, f0, f1, -⟩ := idx_facts t
  show (((cfg0.win 1).blk t).view.read (Elt Ideal) (V m c (Pipeline.arrRef spec0 1))) (ix2 q j) = _
  rw [View.read_apply]
  show V m c main_v8 _ = V m c main_v8 _
  congr 1
  funext a
  apply Fin.ext
  match a with
  | ⟨0, _⟩ => show win0_1.index t 0 * 1024 + 1 * q.val = 1024 * (t.val / 4 % 2) + q.val; rw [f0]; omega
  | ⟨1, _⟩ => show win0_1.index t 1 * 512 + 1 * j.val = 512 * (t.val % 4) + j.val; rw [f1]; omega

/-- One accumulating step: a scratch holding the rows' inner products over the contracted indices before this point's
    stretch holds them, after the step, over the indices up to the stretch's end. -/
theorem step_value (c : Dev nD) (t : Fin cfg0.N) (acc : Vec Ideal S1024x1024 .f32) (p q : Fin 1024)
    (hacc : acc (ix2 p q) = dotUpTo (lhs m c) (rhs m c) (1024 * (t.val / 8) + p.val) (1024 * (t.val / 4 % 2) + q.val) (512 * (t.val % 4))) :
    k0_pay2 (F := Ideal) acc (ablk m c t) (bblk m c t) (ix2 p q)
      = dotUpTo (lhs m c) (rhs m c) (1024 * (t.val / 8) + p.val) (1024 * (t.val / 4 % 2) + q.val) (512 * (t.val % 4) + 512) := by
  rw [Payload.accumulate_apply, hacc, dotUpTo_add]
  congr 1
  refine Finset.sum_congr rfl fun j _ => ?_
  rw [lhs_block, rhs_block]

/-- The first of an output block's four points: the scratch is cleared and then holds the first stretch's inner products. -/
theorem scratch_first_value (c : Dev nD) (t : Fin cfg0.N) (h0 : t.val % 4 = 0) (h1 : ¬t.val % 4 = 3) (p q : Fin 1024) :
    (outsAt0 m c t.val t.isLt).2 (ix2 p q)
      = dotUpTo (lhs m c) (rhs m c) (1024 * (t.val / 8) + p.val) (1024 * (t.val / 4 % 2) + q.val) (512 * (t.val % 4) + 512) := by
  rw [outsAt0_A m c t h0 h1]
  dsimp only
  refine (congrFun (Pieces.scratch_first (F := Ideal) c (grid0.coords t) (ms0_0 t) (hs0_0 t) (ms0_1 t) (hs0_1 t) (ms0_2 t) (hs0_2 t) scM0_0 (Memref.isWhole_whole _)
    ((hcond0_0 t).mpr h0) (fun hh => h1 ((hcond0_1 t).mp hh)) (iblk m c 0 t) (iblk m c 1 t)) (ix2 p q)).trans ?_
  refine step_value m c t _ p q ?_
  rw [Payload.cleared_apply, h0]
  exact (dotUpTo_zero _ _ _ _).symm

/-- A later point of the four: the scratch holds what the point before left plus this stretch's inner products. -/
theorem scratch_next_value (c : Dev nD) (t : Fin cfg0.N) (h0 : ¬t.val % 4 = 0) (p q : Fin 1024)
    (ih : (outsAt0 m c (t.val - 1) (Nat.lt_of_le_of_lt (Nat.sub_le _ _) t.isLt)).2 (ix2 p q)
      = dotUpTo (lhs m c) (rhs m c) (1024 * ((t.val - 1) / 8) + p.val) (1024 * ((t.val - 1) / 4 % 2) + q.val) (512 * ((t.val - 1) % 4) + 512)) :
    (outsAt0 m c t.val t.isLt).2 (ix2 p q)
      = dotUpTo (lhs m c) (rhs m c) (1024 * (t.val / 8) + p.val) (1024 * (t.val / 4 % 2) + q.val) (512 * (t.val % 4) + 512) := by
  have e1 : (t.val - 1) / 8 = t.val / 8 := by omega
  have e2 : (t.val - 1) / 4 % 2 = t.val / 4 % 2 := by omega
  have e3 : 512 * ((t.val - 1) % 4) + 512 = 512 * (t.val % 4) := by omega
  rw [e1, e2, e3] at ih
  by_cases h1 : t.val % 4 = 3
  · rw [outsAt0_C m c t h0 h1]
    dsimp only
    refine (congrFun (Pieces.scratch_last (F := Ideal) c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h1) (iblk m c 0 t) (iblk m c 1 t)
      (outsAt0 m c (t.val - 1) (Nat.lt_of_le_of_lt (Nat.sub_le _ _) t.isLt)).2) (ix2 p q)).trans ?_
    exact step_value m c t _ p q ih
  · rw [outsAt0_B m c t h0 h1]
    dsimp only
    refine (congrFun (Pieces.scratch_mid (F := Ideal) c (grid0.coords t) (ms0_0 t) (hs0_0 t) (ms0_1 t) (hs0_1 t) (ms0_2 t) (hs0_2 t) scM0_0 (Memref.isWhole_whole _)
      (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2) (ix2 p q)).trans ?_
    exact step_value m c t _ p q ih

/-- THE RUNNING SUM. After point `n` the scratch holds, at `(p, q)`, the inner product of row `1024 (n / 8) + p` of the
    activations and row `1024 (n / 4 % 2) + q` of the weights over the first `512 (n % 4) + 512` contracted indices:
    by induction on the point. -/
theorem scratch_eq (c : Dev nD) : ∀ (n : ℕ) (h : n < cfg0.N) (p q : Fin 1024),
    (outsAt0 m c n h).2 (ix2 p q)
      = dotUpTo (lhs m c) (rhs m c) (1024 * (n / 8) + p.val) (1024 * (n / 4 % 2) + q.val) (512 * (n % 4) + 512) := by
  intro n
  induction n with
  | zero =>
    intro h p q
    exact scratch_first_value m c ⟨0, h⟩ rfl (by show ¬(0 : ℕ) % 4 = 3; decide) p q
  | succ n ih =>
    intro h p q
    by_cases h0 : (n + 1) % 4 = 0
    · exact scratch_first_value m c ⟨n + 1, h⟩ h0 (by show ¬(n + 1) % 4 = 3; omega) p q
    · exact scratch_next_value m c ⟨n + 1, h⟩ h0 p q (ih (Nat.lt_of_succ_lt h) p q)

/-- At the last of an output block's four points the output's staging buffer holds the scaled, clamped inner products
    over the whole contracted axis. -/
theorem out_eq (c : Dev nD) (t : Fin cfg0.N) (h3 : t.val % 4 = 3) (p q : Fin 1024) :
    (outsAt0 m c t.val t.isLt).1 (ix2 p q)
      = clampScale (dotUpTo (lhs m c) (rhs m c) (1024 * (t.val / 8) + p.val) (1024 * (t.val / 4 % 2) + q.val) 2048) := by
  have h0 : ¬t.val % 4 = 0 := by omega
  have ih := scratch_eq m c (t.val - 1) (Nat.lt_of_le_of_lt (Nat.sub_le _ _) t.isLt) p q
  have e1 : (t.val - 1) / 8 = t.val / 8 := by omega
  have e2 : (t.val - 1) / 4 % 2 = t.val / 4 % 2 := by omega
  have e3 : 512 * ((t.val - 1) % 4) + 512 = 512 * (t.val % 4) := by omega
  rw [e1, e2, e3] at ih
  rw [outsAt0_C m c t h0 h3]
  dsimp only
  refine (congrFun (Pieces.out_last (F := Ideal) c (grid0.coords t) (ms0_0 t) (hs0_0 t) (ms0_1 t) (hs0_1 t) (ms0_2 t) (hs0_2 t) scM0_0 (Memref.isWhole_whole _)
    (fun hh => h0 ((hcond0_0 t).mp hh)) ((hcond0_1 t).mpr h3) (iblk m c 0 t) (iblk m c 1 t)
    (outsAt0 m c (t.val - 1) (Nat.lt_of_le_of_lt (Nat.sub_le _ _) t.isLt)).2) (ix2 p q)).trans ?_
  refine (Payload.emit_apply _ p q).trans ?_
  congr 1
  have e4 : 512 * (t.val % 4) + 512 = 2048 := by omega
  refine (step_value m c t _ p q ih).trans ?_
  rw [e4]

end Cert.KernelIdeal.Blocked

end
-- ==== Proof.KernelFinal.lean ====
/-
  The kernel's result array.

  Every entry `(r, s)` of the (16384, 2048) result lies in exactly one output block, that of the points with first coordinate
  `r / 1024` and second coordinate `s / 1024`; the block is written back once, after the last of its four points, holding the
  scaled, clamped inner product of row `r` of the flattened activations and row `s` of the ternary weights.
-/
import proofs.«126023_j35399120453871_1_alg».proof.Proof.KernelBlocks
import Idealize.ShloMosaic.Lib.Pipeline.Value
import Idealize.ShloMosaic.Lib.ValueIdx
import Idealize.ShloMosaic.Lib.StableHlo.Run

noncomputable section

open scoped BigOperators

namespace Cert.KernelIdeal.Blocked

open Idealize.ShloMosaic Idealize.ShloMosaic.TcCoe Idealize.SL.Sem Idealize.ShloMosaic.ValueIdx
open Idealize.ShloMosaic.Pipeline (Dat)
open Cert.KernelIdeal Cert.KernelIdeal.Gen Cert.TernaryLinear

variable (m : (ℓ : Loc nD τ sig) → Buf (Elt Ideal) ℓ) (ρ : Dev nD → PrngReg)

/-- The flat result: entry `(r, s)` is the scaled, clamped inner product of row `r` of the flattened activations and row `s` of
    the ternary weights. -/
def flat (c : Dev nD) : S16384x2048.Idx → EReal :=
  fun i => clampScale (∑ k : Fin 2048, lhs m c (ix2 (i 0) k) * rhs m c (ix2 (i 1) k))

/-- The flat result at an entry whose coordinates are r and s: the inner product over the whole contracted axis. -/
theorem flat_at (c : Dev nD) (i : S16384x2048.Idx) (r s : ℕ) (hr : r < 16384) (hs : s < 2048)
    (h0 : (i 0).val = r) (h1 : (i 1).val = s) :
    flat m c i = clampScale (dotUpTo (lhs m c) (rhs m c) r s 2048) := by
  have e0 : i 0 = ⟨r, hr⟩ := Fin.ext h0
  have e1 : i 1 = ⟨s, hs⟩ := Fin.ext h1
  rw [dotUpTo_full _ _ hr hs]
  unfold flat
  rw [e0, e1]
  rfl

/-- What a writing point writes back is its block of the flat result. -/
theorem flushed_eq (c : Dev nD) (t : Fin cfg0.N) (hf : (cfg0.win 2).flush t = true) :
    (dats m 0 c).flushed 2 t = ((cfg0.win 2).blk t).view.read (Elt Ideal) (flat m c) := by
  have h3 : t.val % 4 = 3 := (flush0_2 t).mp hf
  have hN := lt_N t
  obtain ⟨-, -, -, -, f0, f1⟩ := idx_facts t
  show (cfg0.win 2).cut (grid0.coords t) ((dats m 0 c).after 2 t) = _
  rw [after0_2]
  funext y
  obtain ⟨p, q, rfl⟩ : ∃ (p q : Fin 1024), y = ix2 p q := ⟨y 0, y 1, eq_ix2 y⟩
  have hr : 1024 * (t.val / 8) + p.val < 16384 := by have := p.isLt; omega
  have hs : 1024 * (t.val / 4 % 2) + q.val < 2048 := by have := q.isLt; omega
  rw [View.read_apply]
  show (outsAt0 m c t.val t.isLt).1 (ix2 p q) = _
  rw [out_eq m c t h3 p q]
  refine (flat_at m c _ _ _ hr hs ?_ ?_).symm
  · show win0_2.index t 0 * 1024 + 1 * p.val = _
    rw [f0]; omega
  · show win0_2.index t 1 * 1024 + 1 * q.val = _
    rw [f1]; omega

/-- An entry of the result lies in a point's output block when each coordinate lies in the block's range on its axis. -/
theorem mem_blk (t : Fin cfg0.N) (i : S16384x2048.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v11).slice (win0_2.rect t)).set ↔ _
  rw [View.set_slice_whole, Rect.mem_set_unit]
  exact Iff.rfl

/-- Every entry (r, s) is in the block of the writing point 8 (r / 1024) + 4 (s / 1024) + 3. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, hv⟩ : ∃ t : Fin cfg0.N, t.val = 8 * ((i 0).val / 1024) + 4 * ((i 1).val / 1024) + 3 :=
    ⟨⟨8 * ((i 0).val / 1024) + 4 * ((i 1).val / 1024) + 3, by rw [show cfg0.N = 128 from N_0]; omega⟩, rfl⟩
  obtain ⟨-, -, -, -, f0, f1⟩ := idx_facts t
  refine ⟨t, (flush0_2 t).mpr (by omega), ?_⟩
  rw [mem_blk]
  intro a
  match a with
  | ⟨0, _⟩ =>
    show win0_2.index t 0 * 1024 ≤ (i 0).val ∧ (i 0).val < win0_2.index t 0 * 1024 + 1024
    rw [f0]; omega
  | ⟨1, _⟩ =>
    show win0_2.index t 1 * 1024 ≤ (i 1).val ∧ (i 1).val < win0_2.index t 1 * 1024 + 1024
    rw [f1]; omega

/-- So the result array ends at the flat result: the written blocks cover it. -/
theorem final_eq (c : Dev nD) : (dats m 0 c).arrAt 2 cfg0.N = flat m c :=
  (dats m 0 c).arrAt_eq_of_cover 2 (flat m c) (fun t hf => flushed_eq m c t hf) cover

end Cert.KernelIdeal.Blocked

end
-- ==== Proof.KernelRun.lean ====
/-
  The idealized kernel program's run, read as a value: the kernel leaves the flat result in its output array, the host
  unflattens it, and the two arguments end as they began.
-/
import proofs.«126023_j35399120453871_1_alg».proof.Proof.KernelFinal
import Idealize.ShloMosaic.Lib.Pipeline.Value
import Idealize.ShloMosaic.Lib.ValueIdx
import Idealize.ShloMosaic.Lib.StableHlo.Run

noncomputable section

namespace Cert.KernelIdeal.Blocked

open Idealize.ShloMosaic Idealize.ShloMosaic.TcCoe Idealize.SL.Sem Idealize.ShloMosaic.ValueIdx
open Idealize.ShloMosaic.Pipeline (Dat)
open Cert.KernelIdeal Cert.KernelIdeal.Gen Cert.TernaryLinear

variable (m : (ℓ : Loc nD τ sig) → Buf (Elt Ideal) ℓ) (ρ : Dev nD → PrngReg)

/-- The run, read: the program's result is the unflattened flat result, and the two arguments end unchanged. -/
theorem run_value : θ_run defs (onTc (τ := τ) (main (F := Ideal))) ⟨m, fun _ => 0, ρ⟩ fun r => ∀ c : Dev nD,
      r.2.mem ((c.tc : Thread nD τ).loc main_v12) = shapeCast S4x4096x2048 (flat m c) shapeCasts_S16384x2048_S4x4096x2048
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_⟩) (run_main m ρ)
  · -- the result array is no array of the pipeline: it holds what the one host operation after the region leaves there,
    -- the unflattening of the kernel's output array, which ends at the flat result
    refine ((h c).2 main_v12 (Pipeline.mem_restRefs_of main_v12 (by decide) (by decide))).trans ?_
    unfold Pipeline.afterTail₀
    show StableHlo.after hostOps1 _ (Proc.devRef .tc main_v12) = _
    after_results
    have e : @Eq (S16384x2048.Idx → EReal)
        (Pipeline.withArrays (cfgs 0).spec c (V0 m c) (fun w => (dats m 0 c).arrAt w (cfgs 0).N) (Proc.devRef .tc main_v11))
        (flat m c) :=
      (Pipeline.withArrays_arr spec0 launch0.win.arr_inj c _ _ 2).trans (final_eq m c)
    exact congrArg (fun y : S16384x2048.Idx → EReal => shapeCast S4x4096x2048 y shapeCasts_S16384x2048_S4x4096x2048) e
  · -- no operation writes the first argument
    exact ((h c).2 main_arg0 (Pipeline.mem_restRefs_of main_arg0 (by decide) (by decide))).trans (W_main_arg0 m (dats m) c)
  · -- nor the second
    exact ((h c).2 main_arg1 (Pipeline.mem_restRefs_of main_arg1 (by decide) (by decide))).trans (W_main_arg1 m (dats m) c)

end Cert.KernelIdeal.Blocked

end
-- ==== Proof.lean ====
/-
  A linear layer with ternary weights: the kernel against its reference, over the extended reals.

  Both programs divide the raw weights by their mean absolute value plus a small stabiliser, round to the nearest
  integer and clamp to [-1, 1]: the ternary weights. The reference then adds the straight-through term, the normalized
  weights minus themselves, which is zero because under the precondition the raw weights are real numbers, the mean
  absolute value plus the stabiliser is a positive real, and so the normalized weights are real; it multiplies the
  activations (4, 4096, 2048) with the transposed weights in one contraction over 2048 indices, divides by 2048,
  multiplies by 128 and clamps to [-128, 128]. The kernel flattens the activations to (16384, 2048), narrows both
  operands to a shorter float format (no change of value at the exact instance), and on a 16 x 2 x 4 grid accumulates,
  for each 1024 x 1024 output block, the four products of 1024 x 512 blocks in a scratch buffer, cleared at the first;
  after the fourth it multiplies by 1/16, clamps to [-128, 128] and writes the block out; the host unflattens the result.

  Equal at every entry: the sum over 2048 indices is the sum of its four stretches of 512 (addition of extended reals is
  associative and commutative), and dividing by 2048 then multiplying by 128 is multiplying by 1/16 on every extended real.
  The precondition is used for the weights only (the straight-through term).

  The frames of the two kernel programs are the generated ones; the reference's frame is its generated run with the
  result dropped; the idealization rewrote nothing.
-/
import proofs.«126023_j35399120453871_1_alg».proof.Defs
import proofs.«126023_j35399120453871_1_alg».proof.Proof.Gen.Kernel
import proofs.«126023_j35399120453871_1_alg».proof.Proof.Gen.Kernel.Frame
import proofs.«126023_j35399120453871_1_alg».proof.Proof.Gen.KernelIdeal
import proofs.«126023_j35399120453871_1_alg».proof.Proof.Gen.KernelIdeal.Frame
import proofs.«126023_j35399120453871_1_alg».proof.Proof.Gen.ReferenceIdeal
import proofs.«126023_j35399120453871_1_alg».proof.Proof.Gen.ReferenceIdeal.Run
import proofs.«126023_j35399120453871_1_alg».proof.Proof.Gen.ReferenceIdeal.Read
import proofs.«126023_j35399120453871_1_alg».proof.Proof.Gen.Pre_finite_inputs
import proofs.«126023_j35399120453871_1_alg».proof.Proof.RefSide
import proofs.«126023_j35399120453871_1_alg».proof.Proof.Finite
import proofs.«126023_j35399120453871_1_alg».proof.Proof.KernelHost
import proofs.«126023_j35399120453871_1_alg».proof.Proof.KernelRun
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's result is the layer of its activations over the ternary weights of its raw weights: entry
    `(b, s, o)` of the unflattened array is entry `(4096 b + s, o)` of the flat result, whose row `4096 b + s` of
    activations is row `(b, s)`. -/
theorem kernel_eq_layer (m : (ℓ : Loc Cert.KernelIdeal.nD Cert.KernelIdeal.τ Cert.KernelIdeal.sig) → Buf (Elt Ideal) ℓ)
    (c : Dev Cert.KernelIdeal.nD) (h : Cert.KernelIdeal.S16384x2048.ShapeCasts Cert.KernelIdeal.S4x4096x2048) :
    shapeCast Cert.KernelIdeal.S4x4096x2048 (Cert.KernelIdeal.Blocked.flat m c) h
      = Cert.TernaryLinear.layer (m ((c.tc : Thread Cert.KernelIdeal.nD Cert.KernelIdeal.τ).loc Cert.KernelIdeal.main_arg0))
          (Cert.ReferenceIdeal.Read.val_main_v7 (F := Ideal) (m ((c.tc : Thread Cert.KernelIdeal.nD Cert.KernelIdeal.τ).loc Cert.KernelIdeal.main_arg1))) := by
  funext i
  obtain ⟨b, s, o, rfl⟩ : ∃ (b : Fin 4) (s : Fin 4096) (o : Fin 2048), i = ix3 b s o := ⟨i 0, i 1, i 2, eq_ix3 i⟩
  rw [Cert.KernelIdeal.HostSide.unflatten_entry]
  unfold Cert.KernelIdeal.Blocked.flat Cert.TernaryLinear.layer
  congr 1
  refine Finset.sum_congr rfl fun k _ => ?_
  exact congr (congrArg HMul.hMul (Cert.KernelIdeal.HostSide.lhs_entry m c b s k))
    (congrFun (Cert.KernelIdeal.HostSide.rhs_eq m c) (ix2 o k))

/-- From memories that agree on the arguments both programs end with the layer of the activations over the ternary
    weights: the kernel by its run read as a value, the reference by its run and the precondition on the weights. -/
theorem algebraic : Cert.algebraic_KernelIdeal_ReferenceIdeal := by
  intro m ρ m' ρ' hpre hagree
  refine ⟨fun c => Cert.TernaryLinear.layer (m ((c.tc : Thread Cert.KernelIdeal.nD Cert.KernelIdeal.τ).loc Cert.KernelIdeal.main_arg0))
      (Cert.ReferenceIdeal.Read.val_main_v7 (F := Ideal) (m ((c.tc : Thread Cert.KernelIdeal.nD Cert.KernelIdeal.τ).loc Cert.KernelIdeal.main_arg1))), ?_, ?_⟩
  · exact (θ_run Cert.KernelIdeal.defs _ _).mono (fun _ h c => ⟨(h c).1.trans (kernel_eq_layer m c _), (h c).2⟩)
      (Cert.KernelIdeal.Blocked.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, (hagree c).1, (hagree c).2]
    exact Cert.ReferenceIdeal.RefValue.reference_eq_layer _ _
      (fun j => Cert.Pre_finite_inputs.Decode.weight_real _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
